-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S250000x18 : Shape := ⟨2, ![250000, 18]⟩
abbrev S2x4000000 : Shape := ⟨2, ![2, 4000000]⟩
abbrev S18x16 : Shape := ⟨2, ![18, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S250000x18 : S_.BroadcastsInDim S250000x18 (![] : Fin 0 → Fin S250000x18.rank)
  reducesTo_S250000x18_S_d0_1 : S250000x18.ReducesTo [0, 1] S_
  h_S_ : 0 < S_.numel
  bcast_S_S18x16 : S_.BroadcastsInDim S18x16 (![] : Fin 0 → Fin S18x16.rank)
  reducesTo_S18x16_S_d0_1 : S18x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S16x1 1) : IVec S_ 1 :=
  let main_c_5 : IVec S_ 1 := constantI S_ 1 1#1
  let main_v17 : IVec S_ 1 := (fun x v => Host.reduce IntOp.andi x v reducesTo_S16x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S250000x18 .f32) (main_arg1 : IVec S2x4000000 32) (main_arg2 : FVec F S18x16 .f32) (main_arg3 : FVec F S16 .f32) (main_arg4 : FVec F S16x1 .f32) (main_arg5 : FVec F S1 .f32) : IVec S_ 1 :=
  let main_v0 : FVec F S250000x18 .f32 := Host.absf main_arg0
  let main_cst : FVec F S_ .f32 := constant S_ .f32 0x7F800000#32
  let main_v1 : FVec F S250000x18 .f32 := broadcastInDim S250000x18 ![] bcast_S_S250000x18 main_cst
  let main_v2 : IVec S250000x18 1 := cmpf .olt main_v0 main_v1
  let main_c : IVec S_ 1 := constantI S_ 1 1#1
  let main_v3 : IVec S_ 1 := (fun x v => Host.reduce IntOp.andi x v reducesTo_S250000x18_S_d0_1 h_S_) main_v2 main_c
  let main_v4 : FVec F S18x16 .f32 := Host.absf main_arg2
  let main_cst_0 : FVec F S_ .f32 := constant S_ .f32 0x7F800000#32
  let main_v5 : FVec F S18x16 .f32 := broadcastInDim S18x16 ![] bcast_S_S18x16 main_cst_0
  let main_v6 : IVec S18x16 1 := cmpf .olt main_v4 main_v5
  let main_c_1 : IVec S_ 1 := constantI S_ 1 1#1
  let main_v7 : IVec S_ 1 := (fun x v => Host.reduce IntOp.andi x v reducesTo_S18x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x1 .f32 := Host.absf main_arg4
  let main_cst_4 : FVec F S_ .f32 := constant S_ .f32 0x7F800000#32
  let main_v15 : FVec F S16x1 .f32 := broadcastInDim S16x1 ![] bcast_S_S16x1 main_cst_4
  let main_v16 : IVec S16x1 1 := cmpf .olt main_v14 main_v15
  fn_part1 (F := F) main_arg5 main_v13 main_v16
-- ==== Kernel.lean ====
abbrev S250000x18 : Shape := ⟨2, ![250000, 18]⟩
abbrev S2x4000000 : Shape := ⟨2, ![2, 4000000]⟩
abbrev S18x16 : Shape := ⟨2, ![18, 16]⟩
abbrev S16 : Shape := ⟨1, ![16]⟩
abbrev S16x1 : Shape := ⟨2, ![16, 1]⟩
abbrev S1 : Shape := ⟨1, ![1]⟩
abbrev S1x4000000 : Shape := ⟨2, ![1, 4000000]⟩
abbrev S4000000 : Shape := ⟨1, ![4000000]⟩
abbrev S250000 : Shape := ⟨1, ![250000]⟩
abbrev S4250000 : Shape := ⟨1, ![4250000]⟩
abbrev S_ : Shape := ⟨0, ![]⟩
abbrev S4250000x1 : Shape := ⟨2, ![4250000, 1]⟩
abbrev S250000x16 : Shape := ⟨2, ![250000, 16]⟩
abbrev S25000x18 : Shape := ⟨2, ![25000, 18]⟩
abbrev S25000x16 : Shape := ⟨2, ![25000, 16]⟩
abbrev S4250000x16 : Shape := ⟨2, ![4250000, 16]⟩
abbrev S1x16 : Shape := ⟨2, ![1, 16]⟩
abbrev S250000x1 : Shape := ⟨2, ![250000, 1]⟩
abbrev S25000x1 : Shape := ⟨2, ![25000, 1]⟩
abbrev S1x1 : Shape := ⟨2, ![1, 1]⟩

abbrev nBuf : Space → Nat
  | .hbm => 83
  | .vmem => 20
  | .smem => 0
  | _ => 0

abbrev bufTy : (tb : Table) → Fin (tcTables nBuf tb) → BufTy
  | .hbm, ⟨0, _⟩ => ⟨S250000x18, .f32⟩
  | .hbm, ⟨1, _⟩ => ⟨S2x4000000, .i32⟩
  | .hbm, ⟨2, _⟩ => ⟨S18x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S1x4000000, .i32⟩
  | .hbm, ⟨7, _⟩ => ⟨S4000000, .i32⟩
  | .hbm, ⟨8, _⟩ => ⟨S1x4000000, .i32⟩
  | .hbm, ⟨9, _⟩ => ⟨S4000000, .i32⟩
  | .hbm, ⟨10, _⟩ => ⟨S250000, .i32⟩
  | .hbm, ⟨11, _⟩ => ⟨S4250000, .i32⟩
  | .hbm, ⟨12, _⟩ => ⟨S4250000, .i32⟩
  | .hbm, ⟨13, _⟩ => ⟨S_, .f32⟩
  | .hbm, ⟨14, _⟩ => ⟨S4250000, .f32⟩
  | .hbm, ⟨15, _⟩ => ⟨S_, .f32⟩
  | .hbm, ⟨16, _⟩ => ⟨S250000, .f32⟩
  | .hbm, ⟨17, _⟩ => ⟨S4250000x1, .i32⟩
  | .hbm, ⟨18, _⟩ => ⟨S250000, .f32⟩
  | .hbm, ⟨19, _⟩ => ⟨S_, .f32⟩
  | .hbm, ⟨20, _⟩ => ⟨S250000, .f32⟩
  | .hbm, ⟨21, _⟩ => ⟨S250000, .i1⟩
  | .hbm, ⟨22, _⟩ => ⟨S250000, .f32⟩
  | .hbm, ⟨23, _⟩ => ⟨S_, .f32⟩
  | .hbm, ⟨24, _⟩ => ⟨S_, .f32⟩
  | .hbm, ⟨25, _⟩ => ⟨S250000, .f32⟩
  | .hbm, ⟨26, _⟩ => ⟨S250000, .f32⟩
  | .hbm, ⟨27, _⟩ => ⟨S_, .i32⟩
  | .hbm, ⟨28, _⟩ => ⟨S4250000, .i32⟩
  | .hbm, ⟨29, _⟩ => ⟨S4250000, .i1⟩
  | .hbm, ⟨30, _⟩ => ⟨S_, .i32⟩
  | .hbm, ⟨31, _⟩ => ⟨S4250000, .i32⟩
  | .hbm, ⟨32, _⟩ => ⟨S4250000, .i32⟩
  | .hbm, ⟨33, _⟩ => ⟨S4250000, .i32⟩
  | .hbm, ⟨34, _⟩ => ⟨S4250000x1, .i32⟩
  | .hbm, ⟨35, _⟩ => ⟨S4250000, .f32⟩
  | .hbm, ⟨36, _⟩ => ⟨S_, .i32⟩
  | .hbm, ⟨37, _⟩ => ⟨S4250000, .i32⟩
  | .hbm, ⟨38, _⟩ => ⟨S4250000, .i1⟩
  | .hbm, ⟨39, _⟩ => ⟨S_, .i32⟩
  | .hbm, ⟨40, _⟩ => ⟨S4250000, .i32⟩
  | .hbm, ⟨41, _⟩ => ⟨S4250000, .i32⟩
  | .hbm, ⟨42, _⟩ => ⟨S4250000, .i32⟩
  | .hbm, ⟨43, _⟩ => ⟨S4250000x1, .i32⟩
  | .hbm, ⟨44, _⟩ => ⟨S4250000, .f32⟩
  | .hbm, ⟨45, _⟩ => ⟨S4250000, .f32⟩
  | .hbm, ⟨46, _⟩ => ⟨S250000x16, .f32⟩
  | .hbm, ⟨47, _⟩ => ⟨S_, .i32⟩
  | .hbm, ⟨48, _⟩ => ⟨S4250000, .i32⟩
  | .hbm, ⟨49, _⟩ => ⟨S4250000, .i1⟩
  | .hbm, ⟨50, _⟩ => ⟨S_, .i32⟩
  | .hbm, ⟨51, _⟩ => ⟨S4250000, .i32⟩
  | .hbm, ⟨52, _⟩ => ⟨S4250000, .i32⟩
  | .hbm, ⟨53, _⟩ => ⟨S4250000, .i32⟩
  | .hbm, ⟨54, _⟩ => ⟨S4250000x1, .i32⟩
  | .hbm, ⟨55, _⟩ => ⟨S4250000x16, .f32⟩
  | .hbm, ⟨56, _⟩ => ⟨S4250000x1, .f32⟩
  | .hbm, ⟨57, _⟩ => ⟨S4250000x16, .f32⟩
  | .hbm, ⟨58, _⟩ => ⟨S4250000x16, .f32⟩
  | .hbm, ⟨59, _⟩ => ⟨S_, .f32⟩
  | .hbm, ⟨60, _⟩ => ⟨S250000x16, .f32⟩
  | .hbm, ⟨61, _⟩ => ⟨S4250000x1, .i32⟩
  | .hbm, ⟨62, _⟩ => ⟨S250000x16, .f32⟩
  | .hbm, ⟨63, _⟩ => ⟨S1x16, .f32⟩
  | .hbm, ⟨64, _⟩ => ⟨S250000x16, .f32⟩
  | .hbm, ⟨65, _⟩ => ⟨S250000x1, .f32⟩
  | .hbm, ⟨66, _⟩ => ⟨S_, .i32⟩
  | .hbm, ⟨67, _⟩ => ⟨S4250000, .i32⟩
  | .hbm, ⟨68, _⟩ => ⟨S4250000, .i1⟩
  | .hbm, ⟨69, _⟩ => ⟨S_, .i32⟩
  | .hbm, ⟨70, _⟩ => ⟨S4250000, .i32⟩
  | .hbm, ⟨71, _⟩ => ⟨S4250000, .i32⟩
  | .hbm, ⟨72, _⟩ => ⟨S4250000, .i32⟩
  | .hbm, ⟨73, _⟩ => ⟨S4250000x1, .i32⟩
  | .hbm, ⟨74, _⟩ => ⟨S4250000x1, .f32⟩
  | .hbm, ⟨75, _⟩ => ⟨S4250000x1, .f32⟩
  | .hbm, ⟨76, _⟩ => ⟨S4250000x1, .f32⟩
  | .hbm, ⟨77, _⟩ => ⟨S_, .f32⟩
  | .hbm, ⟨78, _⟩ => ⟨S250000x1, .f32⟩
  | .hbm, ⟨79, _⟩ => ⟨S4250000x1, .i32⟩
  | .hbm, ⟨80, _⟩ => ⟨S250000x1, .f32⟩
  | .hbm, ⟨81, _⟩ => ⟨S1x1, .f32⟩
  | .hbm, ⟨82, _⟩ => ⟨S250000x1, .f32⟩
  | .local _ .vmem, ⟨0, _⟩ => ⟨S25000x18, .f32⟩
  | .local _ .vmem, ⟨1, _⟩ => ⟨S25000x18, .f32⟩
  | .local _ .vmem, ⟨2, _⟩ => ⟨S18x16, .f32⟩
  | .local _ .vmem, ⟨3, _⟩ => ⟨S25000x16, .f32⟩
  | .local _ .vmem, ⟨4, _⟩ => ⟨S25000x16, .f32⟩
  | .local _ .vmem, ⟨5, _⟩ => ⟨S25000x16, .f32⟩
  | .local _ .vmem, ⟨6, _⟩ => ⟨S25000x16, .f32⟩
  | .local _ .vmem, ⟨7, _⟩ => ⟨S1x16, .f32⟩
  | .local _ .vmem, ⟨8, _⟩ => ⟨S25000x16, .f32⟩
  | .local _ .vmem, ⟨9, _⟩ => ⟨S25000x16, .f32⟩
  | .local _ .vmem, ⟨10, _⟩ => ⟨S25000x16, .f32⟩
  | .local _ .vmem, ⟨11, _⟩ => ⟨S25000x16, .f32⟩
  | .local _ .vmem, ⟨12, _⟩ => ⟨S16x1, .f32⟩
  | .local _ .vmem, ⟨13, _⟩ => ⟨S25000x1, .f32⟩
  | .local _ .vmem, ⟨14, _⟩ => ⟨S25000x1, .f32⟩
  | .local _ .vmem, ⟨15, _⟩ => ⟨S25000x1, .f32⟩
  | .local _ .vmem, ⟨16, _⟩ => ⟨S25000x1, .f32⟩
  | .local _ .vmem, ⟨17, _⟩ => ⟨S1x1, .f32⟩
  | .local _ .vmem, ⟨18, _⟩ => ⟨S25000x1, .f32⟩
  | .local _ .vmem, ⟨19, _⟩ => ⟨S25000x1, .f32⟩
  | _, _ => ⟨S250000x18, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S25000x18 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S25000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S25000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S25000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S25000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S25000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S25000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S25000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  concatenates_S4000000_S250000_S4250000_d0 : Shape.Concatenates [S4000000, S250000] S4250000 0
  bcast_S_S4250000 : S_.BroadcastsInDim S4250000 (![] : Fin 0 → Fin S4250000.rank)
  bcast_S_S250000 : S_.BroadcastsInDim S250000 (![] : Fin 0 → Fin S250000.rank)
  bcast_S4250000_S4250000x1_0 : S4250000.BroadcastsInDim S4250000x1 (![0] : Fin 1 → Fin S4250000x1.rank)
  inb_S25000x18_S25000x18_0_0 : ∀ a, (![0, 0] : Fin 2 → Nat) a + S25000x18.size a ≤ S25000x18.size a
  h_S25000x18 : 0 < S25000x18.numel
  bitsLt_bf16_f32 : FTy.bits .bf16 < FTy.bits .f32
  inb_S18x16_S18x16_0_0 : ∀ a, (![0, 0] : Fin 2 → Nat) a + S18x16.size a ≤ S18x16.size a
  h_S18x16 : 0 < S18x16.numel
  inb_S25000x16_S25000x16_0_0 : ∀ a, (![0, 0] : Fin 2 → Nat) a + S25000x16.size a ≤ S25000x16.size a
  h_S25000x16 : 0 < S25000x16.numel
  bcast_S4250000x1_S4250000x16_0_1 : S4250000x1.BroadcastsInDim S4250000x16 (![0, 1] : Fin 2 → Fin S4250000x16.rank)
  bcast_S_S250000x16 : S_.BroadcastsInDim S250000x16 (![] : Fin 0 → Fin S250000x16.rank)
  shapeCasts_S16_S1x16 : S16.ShapeCasts S1x16
  shapeCasts_S25000x16_S25000x16 : S25000x16.ShapeCasts S25000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S25000x16 : S1x16.Broadcasts S25000x16
  inb_S16x1_S16x1_0_0 : ∀ a, (![0, 0] : Fin 2 → Nat) a + S16x1.size a ≤ S16x1.size a
  h_S16x1 : 0 < S16x1.numel
  inb_S25000x1_S25000x1_0_0 : ∀ a, (![0, 0] : Fin 2 → Nat) a + S25000x1.size a ≤ S25000x1.size a
  h_S25000x1 : 0 < S25000x1.numel
  bcast_S_S250000x1 : S_.BroadcastsInDim S250000x1 (![] : Fin 0 → Fin S250000x1.rank)
  shapeCasts_S1_S1x1 : S1.ShapeCasts S1x1
  shapeCasts_S25000x1_S25000x1 : S25000x1.ShapeCasts S25000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S25000x1 : S1x1.Broadcasts S25000x1
  scatter_S250000_S4250000x1_S4250000_n_0_0_1_wf : ScatterDims.WF S250000 S4250000x1 S4250000 [] [0] [0] 1
  gather_S250000_S4250000x1_S4250000_n_0_n_n_0_1_1_wf : GatherDims.WF S250000 S4250000x1 S4250000 [] [0] [] [0] [] 1 ![1]
  dot_S25000x18_S18x16_S25000x16_1_0_0_1_n_n_wf : DotDims.WF S25000x18 S18x16 S25000x16 [1] [0] [0] [1] [] []
  gather_S250000x16_S4250000x1_S4250000x16_1_0_n_n_0_1_116_wf : GatherDims.WF S250000x16 S4250000x1 S4250000x16 [1] [0] [] [0] [] 1 ![1, 16]
  scatter_S250000x16_S4250000x1_S4250000x16_1_0_0_1_wf : ScatterDims.WF S250000x16 S4250000x1 S4250000x16 [1] [0] [0] 1
  dot_S25000x16_S16x1_S25000x1_1_0_0_1_n_n_wf : DotDims.WF S25000x16 S16x1 S25000x1 [1] [0] [0] [1] [] []
  gather_S250000x1_S4250000x1_S4250000x1_1_0_n_n_0_1_11_wf : GatherDims.WF S250000x1 S4250000x1 S4250000x1 [1] [0] [] [0] [] 1 ![1, 1]
  scatter_S250000x1_S4250000x1_S4250000x1_1_0_0_1_wf : ScatterDims.WF S250000x1 S4250000x1 S4250000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x18.size a ≤ S250000x18.size a
  hwx0_0 : ∀ i : grid0.Coords, EltTy.bits .f32 = 32 ∨ (Rect.block (s := S250000x18) S25000x18.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S18x16.size a ≤ S18x16.size a
  hwx0_1 : ∀ i : grid0.Coords, EltTy.bits .f32 = 32 ∨ (Rect.block (s := S18x16) S18x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S25000x16.size a ≤ S250000x16.size a
  hwx0_2 : ∀ i : grid0.Coords, EltTy.bits .f32 = 32 ∨ (Rect.block (s := S250000x16) S25000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S25000x16.size a ≤ S250000x16.size a
  hwx1_0 : ∀ i : grid1.Coords, EltTy.bits .f32 = 32 ∨ (Rect.block (s := S250000x16) S25000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S25000x16.size a ≤ S250000x16.size a
  hwx1_2 : ∀ i : grid1.Coords, EltTy.bits .f32 = 32 ∨ (Rect.block (s := S250000x16) S25000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S25000x16.size a ≤ S250000x16.size a
  hwx2_0 : ∀ i : grid2.Coords, EltTy.bits .f32 = 32 ∨ (Rect.block (s := S250000x16) S25000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1.size a ≤ S16x1.size a
  hwx2_1 : ∀ i : grid2.Coords, EltTy.bits .f32 = 32 ∨ (Rect.block (s := S16x1) S16x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S25000x1.size a ≤ S250000x1.size a
  hwx2_2 : ∀ i : grid2.Coords, EltTy.bits .f32 = 32 ∨ (Rect.block (s := S250000x1) S25000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S25000x1.size a ≤ S250000x1.size a
  hwx3_0 : ∀ i : grid3.Coords, EltTy.bits .f32 = 32 ∨ (Rect.block (s := S250000x1) S25000x1.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x1.size a ≤ S1x1.size a
  hwx3_1 : ∀ i : grid3.Coords, EltTy.bits .f32 = 32 ∨ (Rect.block (s := S1x1) S1x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S25000x1.size a ≤ S250000x1.size a
  hwx3_2 : ∀ i : grid3.Coords, EltTy.bits .f32 = 32 ∨ (Rect.block (s := S250000x1) S25000x1.size (cc3_transform_2 i) (hinb3_2 i)).WholeWords (EltTy.packing .f32)

variable [Facts₀]

def scatter_S250000_S4250000x1_S4250000_n_0_0_1 : ScatterDims S250000 S4250000x1 S4250000 where
  updateWindowDims := []
  insertedWindowDims := [0]
  scatterDimsToOperandDims := [0]
  indexVectorDim := 1
  wf := scatter_S250000_S4250000x1_S4250000_n_0_0_1_wf
def gather_S250000_S4250000x1_S4250000_n_0_n_n_0_1_1 : GatherDims S250000 S4250000x1 S4250000 where
  offsetDims := []
  collapsedSliceDims := [0]
  operandBatchingDims := []
  startIndicesBatchingDims := []
  startIndexMap := [0]
  indexVectorDim := 1
  sliceSizes := ![1]
  wf := gather_S250000_S4250000x1_S4250000_n_0_n_n_0_1_1_wf
def dot_S25000x18_S18x16_S25000x16_1_0_0_1_n_n : DotDims S25000x18 S18x16 S25000x16 where
  lhsContracting := [1]
  rhsContracting := [0]
  lhsNonContracting := [0]
  rhsNonContracting := [1]
  lhsBatch := []
  rhsBatch := []
  wf := dot_S25000x18_S18x16_S25000x16_1_0_0_1_n_n_wf
def gather_S250000x16_S4250000x1_S4250000x16_1_0_n_n_0_1_116 : GatherDims S250000x16 S4250000x1 S4250000x16 where
  offsetDims := [1]
  collapsedSliceDims := [0]
  operandBatchingDims := []
  startIndicesBatchingDims := []
  startIndexMap := [0]
  indexVectorDim := 1
  sliceSizes := ![1, 16]
  wf := gather_S250000x16_S4250000x1_S4250000x16_1_0_n_n_0_1_116_wf
def scatter_S250000x16_S4250000x1_S4250000x16_1_0_0_1 : ScatterDims S250000x16 S4250000x1 S4250000x16 where
  updateWindowDims := [1]
  insertedWindowDims := [0]
  scatterDimsToOperandDims := [0]
  indexVectorDim := 1
  wf := scatter_S250000x16_S4250000x1_S4250000x16_1_0_0_1_wf
def dot_S25000x16_S16x1_S25000x1_1_0_0_1_n_n : DotDims S25000x16 S16x1 S25000x1 where
  lhsContracting := [1]
  rhsContracting := [0]
  lhsNonContracting := [0]
  rhsNonContracting := [1]
  lhsBatch := []
  rhsBatch := []
  wf := dot_S25000x16_S16x1_S25000x1_1_0_0_1_n_n_wf
def gather_S250000x1_S4250000x1_S4250000x1_1_0_n_n_0_1_11 : GatherDims S250000x1 S4250000x1 S4250000x1 where
  offsetDims := [1]
  collapsedSliceDims := [0]
  operandBatchingDims := []
  startIndicesBatchingDims := []
  startIndexMap := [0]
  indexVectorDim := 1
  sliceSizes := ![1, 1]
  wf := gather_S250000x1_S4250000x1_S4250000x1_1_0_n_n_0_1_11_wf
def scatter_S250000x1_S4250000x1_S4250000x1_1_0_0_1 : ScatterDims S250000x1 S4250000x1 S4250000x1 where
  updateWindowDims := [1]
  insertedWindowDims := [0]
  scatterDimsToOperandDims := [0]
  indexVectorDim := 1
  wf := scatter_S250000x1_S4250000x1_S4250000x1_1_0_0_1_wf

abbrev win0_0 : Pipeline.Window sig grid0 :=
  Pipeline.Window.ofSpec (Memref.whole main_arg0) S25000x18.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S18x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S25000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S25000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S25000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S25000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S25000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S25000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S25000x1.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S250000x18 : Shape := ⟨2, ![250000, 18]⟩
abbrev S2x4000000 : Shape := ⟨2, ![2, 4000000]⟩
abbrev S18x16 : Shape := ⟨2, ![18, 16]⟩
abbrev S16 : Shape := ⟨1, ![16]⟩
abbrev S16x1 : Shape := ⟨2, ![16, 1]⟩
abbrev S1 : Shape := ⟨1, ![1]⟩
abbrev S250000 : Shape := ⟨1, ![250000]⟩
abbrev S1x4000000 : Shape := ⟨2, ![1, 4000000]⟩
abbrev S4000000 : Shape := ⟨1, ![4000000]⟩
abbrev S4250000 : Shape := ⟨1, ![4250000]⟩
abbrev S_ : Shape := ⟨0, ![]⟩
abbrev S4250000x1 : Shape := ⟨2, ![4250000, 1]⟩
abbrev S250000x16 : Shape := ⟨2, ![250000, 16]⟩
abbrev S4250000x16 : Shape := ⟨2, ![4250000, 16]⟩
abbrev S1x16 : Shape := ⟨2, ![1, 16]⟩
abbrev S250000x1 : Shape := ⟨2, ![250000, 1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S250000x18, .f32⟩
  | .hbm, ⟨1, _⟩ => ⟨S2x4000000, .i32⟩
  | .hbm, ⟨2, _⟩ => ⟨S18x16, .f32⟩
  | .hbm, ⟨3, _⟩ => ⟨S16, .f32⟩
  | .hbm, ⟨4, _⟩ => ⟨S16x1, .f32⟩
  | .hbm, ⟨5, _⟩ => ⟨S1, .f32⟩
  | .hbm, ⟨6, _⟩ => ⟨S250000, .i32⟩
  | .hbm, ⟨7, _⟩ => ⟨S1x4000000, .i32⟩
  | .hbm, ⟨8, _⟩ => ⟨S4000000, .i32⟩
  | .hbm, ⟨9, _⟩ => ⟨S4250000, .i32⟩
  | .hbm, ⟨10, _⟩ => ⟨S1x4000000, .i32⟩
  | .hbm, ⟨11, _⟩ => ⟨S4000000, .i32⟩
  | .hbm, ⟨12, _⟩ => ⟨S4250000, .i32⟩
  | .hbm, ⟨13, _⟩ => ⟨S_, .f32⟩
  | .hbm, ⟨14, _⟩ => ⟨S4250000, .f32⟩
  | .hbm, ⟨15, _⟩ => ⟨S_, .f32⟩
  | .hbm, ⟨16, _⟩ => ⟨S250000, .f32⟩
  | .hbm, ⟨17, _⟩ => ⟨S4250000x1, .i32⟩
  | .hbm, ⟨18, _⟩ => ⟨S250000, .f32⟩
  | .hbm, ⟨19, _⟩ => ⟨S_, .f32⟩
  | .hbm, ⟨20, _⟩ => ⟨S250000, .f32⟩
  | .hbm, ⟨21, _⟩ => ⟨S250000, .i1⟩
  | .hbm, ⟨22, _⟩ => ⟨S250000, .f32⟩
  | .hbm, ⟨23, _⟩ => ⟨S_, .f32⟩
  | .hbm, ⟨24, _⟩ => ⟨S_, .f32⟩
  | .hbm, ⟨25, _⟩ => ⟨S250000, .f32⟩
  | .hbm, ⟨26, _⟩ => ⟨S250000, .f32⟩
  | .hbm, ⟨27, _⟩ => ⟨S_, .i32⟩
  | .hbm, ⟨28, _⟩ => ⟨S4250000, .i32⟩
  | .hbm, ⟨29, _⟩ => ⟨S4250000, .i1⟩
  | .hbm, ⟨30, _⟩ => ⟨S_, .i32⟩
  | .hbm, ⟨31, _⟩ => ⟨S4250000, .i32⟩
  | .hbm, ⟨32, _⟩ => ⟨S4250000, .i32⟩
  | .hbm, ⟨33, _⟩ => ⟨S4250000, .i32⟩
  | .hbm, ⟨34, _⟩ => ⟨S4250000x1, .i32⟩
  | .hbm, ⟨35, _⟩ => ⟨S4250000, .f32⟩
  | .hbm, ⟨36, _⟩ => ⟨S_, .i32⟩
  | .hbm, ⟨37, _⟩ => ⟨S4250000, .i32⟩
  | .hbm, ⟨38, _⟩ => ⟨S4250000, .i1⟩
  | .hbm, ⟨39, _⟩ => ⟨S_, .i32⟩
  | .hbm, ⟨40, _⟩ => ⟨S4250000, .i32⟩
  | .hbm, ⟨41, _⟩ => ⟨S4250000, .i32⟩
  | .hbm, ⟨42, _⟩ => ⟨S4250000, .i32⟩
  | .hbm, ⟨43, _⟩ => ⟨S4250000x1, .i32⟩
  | .hbm, ⟨44, _⟩ => ⟨S4250000, .f32⟩
  | .hbm, ⟨45, _⟩ => ⟨S4250000, .f32⟩
  | .hbm, ⟨46, _⟩ => ⟨S250000x16, .f32⟩
  | .hbm, ⟨47, _⟩ => ⟨S_, .i32⟩
  | .hbm, ⟨48, _⟩ => ⟨S4250000, .i32⟩
  | .hbm, ⟨49, _⟩ => ⟨S4250000, .i1⟩
  | .hbm, ⟨50, _⟩ => ⟨S_, .i32⟩
  | .hbm, ⟨51, _⟩ => ⟨S4250000, .i32⟩
  | .hbm, ⟨52, _⟩ => ⟨S4250000, .i32⟩
  | .hbm, ⟨53, _⟩ => ⟨S4250000, .i32⟩
  | .hbm, ⟨54, _⟩ => ⟨S4250000x1, .i32⟩
  | .hbm, ⟨55, _⟩ => ⟨S4250000x16, .f32⟩
  | .hbm, ⟨56, _⟩ => ⟨S4250000x1, .f32⟩
  | .hbm, ⟨57, _⟩ => ⟨S4250000x16, .f32⟩
  | .hbm, ⟨58, _⟩ => ⟨S4250000x16, .f32⟩
  | .hbm, ⟨59, _⟩ => ⟨S_, .f32⟩
  | .hbm, ⟨60, _⟩ => ⟨S250000x16, .f32⟩
  | .hbm, ⟨61, _⟩ => ⟨S4250000x1, .i32⟩
  | .hbm, ⟨62, _⟩ => ⟨S250000x16, .f32⟩
  | .hbm, ⟨63, _⟩ => ⟨S1x16, .f32⟩
  | .hbm, ⟨64, _⟩ => ⟨S250000x16, .f32⟩
  | .hbm, ⟨65, _⟩ => ⟨S250000x16, .f32⟩
  | .hbm, ⟨66, _⟩ => ⟨S_, .f32⟩
  | .hbm, ⟨67, _⟩ => ⟨S250000x16, .f32⟩
  | .hbm, ⟨68, _⟩ => ⟨S250000x16, .f32⟩
  | .hbm, ⟨69, _⟩ => ⟨S250000x1, .f32⟩
  | .hbm, ⟨70, _⟩ => ⟨S_, .i32⟩
  | .hbm, ⟨71, _⟩ => ⟨S4250000, .i32⟩
  | .hbm, ⟨72, _⟩ => ⟨S4250000, .i1⟩
  | .hbm, ⟨73, _⟩ => ⟨S_, .i32⟩
  | .hbm, ⟨74, _⟩ => ⟨S4250000, .i32⟩
  | .hbm, ⟨75, _⟩ => ⟨S4250000, .i32⟩
  | .hbm, ⟨76, _⟩ => ⟨S4250000, .i32⟩
  | .hbm, ⟨77, _⟩ => ⟨S4250000x1, .i32⟩
  | .hbm, ⟨78, _⟩ => ⟨S4250000x1, .f32⟩
  | .hbm, ⟨79, _⟩ => ⟨S4250000x1, .f32⟩
  | .hbm, ⟨80, _⟩ => ⟨S4250000x1, .f32⟩
  | .hbm, ⟨81, _⟩ => ⟨S_, .f32⟩
  | .hbm, ⟨82, _⟩ => ⟨S250000x1, .f32⟩
  | .hbm, ⟨83, _⟩ => ⟨S4250000x1, .i32⟩
  | .hbm, ⟨84, _⟩ => ⟨S250000x1, .f32⟩
  | .hbm, ⟨85, _⟩ => ⟨S1x1, .f32⟩
  | .hbm, ⟨86, _⟩ => ⟨S250000x1, .f32⟩
  | .hbm, ⟨87, _⟩ => ⟨S250000x1, .f32⟩
  | _, _ => ⟨S250000x18, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  concatenates_S4000000_S250000_S4250000_d0 : Shape.Concatenates [S4000000, S250000] S4250000 0
  slices_S2x4000000_S1x4000000_1_0 : S2x4000000.Slices ![1, 0] S1x4000000
  bcast_S_S4250000 : S_.BroadcastsInDim S4250000 (![] : Fin 0 → Fin S4250000.rank)
  bcast_S_S250000 : S_.BroadcastsInDim S250000 (![] : Fin 0 → Fin S250000.rank)
  bcast_S4250000_S4250000x1_0 : S4250000.BroadcastsInDim S4250000x1 (![0] : Fin 1 → Fin S4250000x1.rank)
  bcast_S4250000x1_S4250000x16_0_1 : S4250000x1.BroadcastsInDim S4250000x16 (![0, 1] : Fin 2 → Fin S4250000x16.rank)
  bcast_S_S250000x16 : S_.BroadcastsInDim S250000x16 (![] : Fin 0 → Fin S250000x16.rank)
  bcast_S16_S1x16_1 : S16.BroadcastsInDim S1x16 (![1] : Fin 1 → Fin S1x16.rank)
  bcast_S1x16_S250000x16_0_1 : S1x16.BroadcastsInDim S250000x16 (![0, 1] : Fin 2 → Fin S250000x16.rank)
  bcast_S_S250000x1 : S_.BroadcastsInDim S250000x1 (![] : Fin 0 → Fin S250000x1.rank)
  bcast_S1_S1x1_1 : S1.BroadcastsInDim S1x1 (![1] : Fin 1 → Fin S1x1.rank)
  bcast_S1x1_S250000x1_0_1 : S1x1.BroadcastsInDim S250000x1 (![0, 1] : Fin 2 → Fin S250000x1.rank)
  scatter_S250000_S4250000x1_S4250000_n_0_0_1_wf : ScatterDims.WF S250000 S4250000x1 S4250000 [] [0] [0] 1
  gather_S250000_S4250000x1_S4250000_n_0_n_n_0_1_1_wf : GatherDims.WF S250000 S4250000x1 S4250000 [] [0] [] [0] [] 1 ![1]
  dot_S250000x18_S18x16_S250000x16_1_0_0_1_n_n_wf : DotDims.WF S250000x18 S18x16 S250000x16 [1] [0] [0] [1] [] []
  gather_S250000x16_S4250000x1_S4250000x16_1_0_n_n_0_1_116_wf : GatherDims.WF S250000x16 S4250000x1 S4250000x16 [1] [0] [] [0] [] 1 ![1, 16]
  scatter_S250000x16_S4250000x1_S4250000x16_1_0_0_1_wf : ScatterDims.WF S250000x16 S4250000x1 S4250000x16 [1] [0] [0] 1
  dot_S250000x16_S16x1_S250000x1_1_0_0_1_n_n_wf : DotDims.WF S250000x16 S16x1 S250000x1 [1] [0] [0] [1] [] []
  gather_S250000x1_S4250000x1_S4250000x1_1_0_n_n_0_1_11_wf : GatherDims.WF S250000x1 S4250000x1 S4250000x1 [1] [0] [] [0] [] 1 ![1, 1]
  scatter_S250000x1_S4250000x1_S4250000x1_1_0_0_1_wf : ScatterDims.WF S250000x1 S4250000x1 S4250000x1 [1] [0] [0] 1

variable [Facts₀]

def scatter_S250000_S4250000x1_S4250000_n_0_0_1 : ScatterDims S250000 S4250000x1 S4250000 where
  updateWindowDims := []
  insertedWindowDims := [0]
  scatterDimsToOperandDims := [0]
  indexVectorDim := 1
  wf := scatter_S250000_S4250000x1_S4250000_n_0_0_1_wf
def gather_S250000_S4250000x1_S4250000_n_0_n_n_0_1_1 : GatherDims S250000 S4250000x1 S4250000 where
  offsetDims := []
  collapsedSliceDims := [0]
  operandBatchingDims := []
  startIndicesBatchingDims := []
  startIndexMap := [0]
  indexVectorDim := 1
  sliceSizes := ![1]
  wf := gather_S250000_S4250000x1_S4250000_n_0_n_n_0_1_1_wf
def dot_S250000x18_S18x16_S250000x16_1_0_0_1_n_n : DotDims S250000x18 S18x16 S250000x16 where
  lhsContracting := [1]
  rhsContracting := [0]
  lhsNonContracting := [0]
  rhsNonContracting := [1]
  lhsBatch := []
  rhsBatch := []
  wf := dot_S250000x18_S18x16_S250000x16_1_0_0_1_n_n_wf
def gather_S250000x16_S4250000x1_S4250000x16_1_0_n_n_0_1_116 : GatherDims S250000x16 S4250000x1 S4250000x16 where
  offsetDims := [1]
  collapsedSliceDims := [0]
  operandBatchingDims := []
  startIndicesBatchingDims := []
  startIndexMap := [0]
  indexVectorDim := 1
  sliceSizes := ![1, 16]
  wf := gather_S250000x16_S4250000x1_S4250000x16_1_0_n_n_0_1_116_wf
def scatter_S250000x16_S4250000x1_S4250000x16_1_0_0_1 : ScatterDims S250000x16 S4250000x1 S4250000x16 where
  updateWindowDims := [1]
  insertedWindowDims := [0]
  scatterDimsToOperandDims := [0]
  indexVectorDim := 1
  wf := scatter_S250000x16_S4250000x1_S4250000x16_1_0_0_1_wf
def dot_S250000x16_S16x1_S250000x1_1_0_0_1_n_n : DotDims S250000x16 S16x1 S250000x1 where
  lhsContracting := [1]
  rhsContracting := [0]
  lhsNonContracting := [0]
  rhsNonContracting := [1]
  lhsBatch := []
  rhsBatch := []
  wf := dot_S250000x16_S16x1_S250000x1_1_0_0_1_n_n_wf
def gather_S250000x1_S4250000x1_S4250000x1_1_0_n_n_0_1_11 : GatherDims S250000x1 S4250000x1 S4250000x1 where
  offsetDims := [1]
  collapsedSliceDims := [0]
  operandBatchingDims := []
  startIndicesBatchingDims := []
  startIndexMap := [0]
  indexVectorDim := 1
  sliceSizes := ![1, 1]
  wf := gather_S250000x1_S4250000x1_S4250000x1_1_0_n_n_0_1_11_wf
def scatter_S250000x1_S4250000x1_S4250000x1_1_0_0_1 : ScatterDims S250000x1 S4250000x1 S4250000x1 where
  updateWindowDims := [1]
  insertedWindowDims := [0]
  scatterDimsToOperandDims := [0]
  indexVectorDim := 1
  wf := scatter_S250000x1_S4250000x1_S4250000x1_1_0_0_1_wf

class Facts : Prop extends Facts₀ where

variable [Facts]
-- ==== Proof.Layers.lean ====
/-
  The two layers' dense arithmetic over whole arrays, at the ideal values (a float is an extended real, every
  operation exact). A matrix product at entry (a, b) is the sum over the contracted coordinate c of A(a, c) · B(c, b).
  A bias row is added to every row of an array, entry (a, b) getting b's entry of the row; the first layer then
  keeps the positive part (the maximum with the zero word's value).
-/
import Idealize.ShloMosaic.Lib.ValueIdx
import Idealize.ShloMosaic.PureOps.Ideal

open scoped BigOperators

noncomputable section

namespace Cert.Layers

open Idealize.ShloMosaic Idealize.ShloMosaic.ValueIdx

variable {m k n : Nat}

/-- The product of an m × k matrix by a k × n matrix: entry (a, b) is the sum over c of A(a, c) · B(c, b). -/
def matProd (A : FVec Ideal ⟨2, ![m, k]⟩ .f32) (B : FVec Ideal ⟨2, ![k, n]⟩ .f32) : FVec Ideal ⟨2, ![m, n]⟩ .f32 :=
  fun i => ∑ c : Fin k, A (ix2 (i 0) c) * B (ix2 c (i 1))

theorem matProd_apply (A : FVec Ideal ⟨2, ![m, k]⟩ .f32) (B : FVec Ideal ⟨2, ![k, n]⟩ .f32) (a : Fin m) (b : Fin n) :
    matProd A B (ix2 a b) = ∑ c : Fin k, A (ix2 a c) * B (ix2 c b) := rfl

/-- A one-row array added to every row of A. -/
def addRow (A : FVec Ideal ⟨2, ![m, n]⟩ .f32) (r : FVec Ideal ⟨2, ![1, n]⟩ .f32) : FVec Ideal ⟨2, ![m, n]⟩ .f32 :=
  fun i => A i + r (ix2 (0 : Fin 1) (i 1))

theorem addRow_apply (A : FVec Ideal ⟨2, ![m, n]⟩ .f32) (r : FVec Ideal ⟨2, ![1, n]⟩ .f32) (a : Fin m) (b : Fin n) :
    addRow A r (ix2 a b) = A (ix2 a b) + r (ix2 (0 : Fin 1) b) := rfl

/-- The positive part of A plus the row: the maximum of each entry with the zero word's value. -/
def addRowPos (A : FVec Ideal ⟨2, ![m, n]⟩ .f32) (r : FVec Ideal ⟨2, ![1, n]⟩ .f32) : FVec Ideal ⟨2, ![m, n]⟩ .f32 :=
  fun i => max (A i + r (ix2 (0 : Fin 1) (i 1))) (Ideal.ofBits .f32 0x00000000#32)

theorem addRowPos_apply (A : FVec Ideal ⟨2, ![m, n]⟩ .f32) (r : FVec Ideal ⟨2, ![1, n]⟩ .f32) (a : Fin m) (b : Fin n) :
    addRowPos A r (ix2 a b) = max (A (ix2 a b) + r (ix2 (0 : Fin 1) b)) (Ideal.ofBits .f32 0x00000000#32) := rfl

end Cert.Layers

end
-- ==== Proof.LibPlainMatmul.lean ====
/-
  A MATRIX PRODUCT READ AT AN ENTRY. A kernel's `tpu.matmul` of an m × k matrix by a k × n matrix (the left operand
  contracted on its columns, the right one on its rows, no batch axis) that accumulates into the zero splat is, at the
  ideal values and at entry (a, b), the sum over the contracted coordinate c of A(a, c) · B(c, b): the accumulator adds
  the extended real 0, and the contraction's one-axis index set is the range of c.
-/
import Idealize.ShloMosaic.Lib.ValueIdx
import Idealize.ShloMosaic.PureOps.Ideal.Laws

open scoped BigOperators

noncomputable section

namespace Idealize.ShloMosaic.PlainMatmul

open Idealize.ShloMosaic Idealize.ShloMosaic.ValueIdx

variable {m k n : Nat} {φ₁ φ₂ : FTy}

/-- The dimension numbers of a plain product, whatever the evidence that they are well formed. -/
def dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ :=
  ⟨[1], [0], [0], [1], [], [], w⟩

/-- At output entry (a, b) and contracted coordinate c the left operand is read at (a, c). -/
theorem lhsIdx_dims (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have hc := contrEquiv1_symm_val (dims w) k rfl rfl c
  funext ax; apply Fin.ext
  match ax with
  | ⟨0, _⟩ => simp [DotDims.lhsIdx, dims]; rfl
  | ⟨1, _⟩ => simp [DotDims.lhsIdx, dims]; exact hc

/-- … and the right operand at (c, b). -/
theorem rhsIdx_dims (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have hc := contrEquiv1_symm_val (dims w) k rfl rfl c
  funext ax; apply Fin.ext
  match ax with
  | ⟨0, _⟩ => simp [DotDims.rhsIdx, dims]; exact hc
  | ⟨1, _⟩ => simp [DotDims.rhsIdx, dims]; rfl

/-- The product into the zero splat, at entry (a, b): the sum of the products along row a of A and column b of B. -/
theorem matmul_zero_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  subst hd
  show FloatOps.matmul (dims w) prec A B (constant ⟨2, ![m, n]⟩ .f32 0x00000000#32) (ix2 a b) = _
  rw [Ideal.matmul_constant_zero_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.Dense1.lean ====
/-
  The first layer's product. The region runs ten row tiles of 25000 rows; each tile multiplies its rows of the
  entering array by the whole 18 × 16 weight matrix (the change of format on the way in is the identity at the ideal
  values, and the accumulator starts at zero). Entry (p, q) of tile t is the sum over the 18 contracted columns of
  x(25000·t + p, c) · W(c, q), which is entry (25000·t + p, q) of the product of the whole arrays: every tile is a
  block of ONE array, and the ten tiles cover the 250000 rows, so the region leaves exactly that product.
-/
import proofs.«176258_j37391985279004_1_alg».proof.Proof.Gen.KernelIdeal.Frame
import proofs.«176258_j37391985279004_1_alg».proof.Proof.Layers
import proofs.«176258_j37391985279004_1_alg».proof.Proof.LibPlainMatmul
import Idealize.ShloMosaic.Lib.Pipeline.Value
import Idealize.ShloMosaic.Lib.ValueIdx

set_option maxRecDepth 16384

open scoped BigOperators

noncomputable section

namespace Cert.KernelIdeal.Dense1

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

-- the buffer contents the region is entered from: a parameter, as in the region's generated half
variable (V : (c : Dev nD) → (b : Ref sig .tc) → Buf (Elt Ideal) ((c : Thread nD τ).loc b))

/-- The array of node features as the region finds it, at its literal type. -/
abbrev feat (c : Dev nD) : FVec Ideal S250000x18 .f32 := V c main_arg0
/-- The weight matrix as the region finds it, at its literal type. -/
abbrev wts (c : Dev nD) : FVec Ideal S18x16 .f32 := V c main_arg2

theorem offsets_zero : (![0, 0] : Fin 2 → Nat) = fun _ => 0 := funext fun a => by fin_cases a <;> rfl

/-- One tile's product at entry (p, q): the sum along row p of the tile and column q of the weights. -/
theorem tile_apply (x0 : Vec Ideal S25000x18 .f32) (x1 : Vec Ideal S18x16 .f32) (p : Fin 25000) (q : Fin 16) :
    k0_pay1 x0 x1 (ix2 p q) = ∑ c : Fin 18, x0 (ix2 p c) * x1 (ix2 c q) := by
  unfold k0_pay1
  exact PlainMatmul.matmul_zero_apply _ dot_S25000x18_S18x16_S25000x16_1_0_0_1_n_n.wf rfl none _ _ p q

/-- The block indices over the grid: the tile of x moves with the output's tile along the rows and sits at column
    block 0; the weights' block is always the whole matrix; the output's column block is 0. -/
theorem block_indices : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 :=
  (by decide +kernel : ∀ t : Fin grid0.N, _)

/-- Every row tile is some point's. -/
theorem tile_onto : ∀ r : Fin 10, ∃ t : Fin cfg0.N, win0_2.index t = ![r.val, 0] :=
  (by decide +kernel : ∀ r : Fin 10, ∃ t : Fin grid0.N, win0_2.index t = ![r.val, 0])

/-- What point t writes back is tile t of the product of the whole entering arrays. -/
theorem flushed_eq (c : Dev nD) (t : Fin cfg0.N) :
    (dat0 V c).flushed 2 t = ((cfg0.win 2).blk t).view.read (Elt Ideal) (matProd (feat V c) (wts V c)) := by
  show (cfg0.win 2).cut (grid0.coords t) ((dat0 V c).after 2 t) = _
  rw [after0_2]
  unfold out0_2
  rw [View.canon_unit_zero offsets_zero]
  simp only [View.ld_unit_zero (S := S25000x18) offsets_zero, View.ld_unit_zero (S := S18x16) offsets_zero]
  obtain ⟨e0, e1, e2, e3, e4⟩ := block_indices t
  funext j
  obtain ⟨p, q, rfl⟩ : ∃ (p : Fin 25000) (q : Fin 16), j = ix2 p q := ⟨j 0, j 1, eq_ix2 j⟩
  show k0_pay1 (iblk0 V c 0 t) (iblk0 V c 1 t) (ix2 p q)
    = matProd (feat V c) (wts V c) (((cfg0.win 2).blk t).view.emb (ix2 p q))
  rw [tile_apply]
  refine Finset.sum_congr rfl fun k _ => ?_
  show feat V c (((cfg0.win 0).blk t).view.emb (ix2 p k)) * wts V c (((cfg0.win 1).blk t).view.emb (ix2 k q))
    = feat V c (ix2 ((((cfg0.win 2).blk t).view.emb (ix2 p q)) 0) k)
      * wts V c (ix2 k ((((cfg0.win 2).blk t).view.emb (ix2 p q)) 1))
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 25000 + 1 * p.val = win0_2.index t (0 : Fin 2) * 25000 + 1 * p.val; omega
    | ⟨1, _⟩ => show win0_0.index t (1 : Fin 2) * 18 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 18 + 1 * k.val = k.val; omega
    | ⟨1, _⟩ => show win0_1.index t (1 : Fin 2) * 16 + 1 * q.val = win0_2.index t (1 : Fin 2) * 16 + 1 * q.val; omega
  rw [h0, h1]
  rfl

/-- An index of the output array is in point t's tile iff each coordinate is in the tile's range on its axis. -/
theorem mem_tile (t : Fin cfg0.N) (i : S250000x16.Idx) :
    i ∈ ((cfg0.win 2).blk t).view.set ↔ ∀ a : Fin 2, win0_2.index t a * S25000x16.size a ≤ (i a).val ∧ (i a).val < win0_2.index t a * S25000x16.size a + S25000x16.size a := by
  show i ∈ ((View.whole main_v30).slice (win0_2.rect t)).set ↔ _
  rw [View.set_slice_whole, Rect.mem_set_unit]
  exact Iff.rfl

/-- The ten tiles cover the array: row r is in tile r / 25000. -/
theorem covered (i : S250000x16.Idx) : ∃ t : Fin cfg0.N, (cfg0.win 2).flush t = true ∧ i ∈ ((cfg0.win 2).blk t).view.set := by
  have hi0 : (i 0).val < 250000 := (i 0).isLt
  have hi1 : (i 1).val < 16 := (i 1).isLt
  obtain ⟨t, ht⟩ := tile_onto ⟨(i 0).val / 25000, by omega⟩
  have q0 : win0_2.index t (0 : Fin 2) = (i 0).val / 25000 := congrFun ht 0
  have q1 : win0_2.index t (1 : Fin 2) = 0 := congrFun ht 1
  refine ⟨t, flush0_2 t, ?_⟩
  rw [mem_tile]
  intro a
  match a with
  | ⟨0, _⟩ => show win0_2.index t (0 : Fin 2) * 25000 ≤ (i 0).val ∧ (i 0).val < win0_2.index t (0 : Fin 2) * 25000 + 25000; omega
  | ⟨1, _⟩ => show win0_2.index t (1 : Fin 2) * 16 ≤ (i 1).val ∧ (i 1).val < win0_2.index t (1 : Fin 2) * 16 + 16; omega

/-- The output array after the region: the product of the entering arrays. -/
theorem final (c : Dev nD) : (dat0 V c).arrAt 2 cfg0.N = matProd (feat V c) (wts V c) :=
  (dat0 V c).arrAt_eq_of_cover 2 _ (fun t _ => flushed_eq V c t) covered

end Cert.KernelIdeal.Dense1

end
-- ==== Proof.Bias1.lean ====
/-
  The first layer's bias and positive part. The region runs ten row tiles of 25000 rows of the aggregated array;
  at every entry (p, q) of a tile it adds entry q of the one bias row and keeps the maximum with zero. The bias row's
  block is the whole row at every point, and a tile's entry (p, q) is entry (25000·t + p, q) of the array, so each
  tile is a block of ONE array — the entering array plus the row, positive part — and the ten tiles cover it.
-/
import proofs.«176258_j37391985279004_1_alg».proof.Proof.Gen.KernelIdeal.Frame
import proofs.«176258_j37391985279004_1_alg».proof.Proof.Layers
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

-- the buffer contents the region is entered from: a parameter, as in the region's generated half
variable (V : (c : Dev nD) → (b : Ref sig .tc) → Buf (Elt Ideal) ((c : Thread nD τ).loc b))

/-- The aggregated array as the region finds it, at its literal type. -/
abbrev agg (c : Dev nD) : FVec Ideal S250000x16 .f32 := V c main_v43
/-- The bias row as the region finds it, at its literal type. -/
abbrev row (c : Dev nD) : FVec Ideal S1x16 .f32 := V c main_v44

theorem offsets_zero : (![0, 0] : Fin 2 → Nat) = fun _ => 0 := funext fun a => by fin_cases a <;> rfl

/-- One tile's result at entry (p, q): the entry plus the row's entry q, positive part. -/
theorem tile_apply (x0 : Vec Ideal S25000x16 .f32) (x1 : Vec Ideal S1x16 .f32) (p : Fin 25000) (q : Fin 16) :
    k1_pay1 x0 x1 (ix2 p q) = max (x0 (ix2 p q) + x1 (ix2 (0 : Fin 1) q)) (Ideal.ofBits .f32 0x00000000#32) := by
  unfold k1_pay1
  show max (shapeCast S25000x16 x0 shapeCasts_S25000x16_S25000x16 (ix2 p q)
      + broadcastTo S25000x16 (shapeCast S1x16 x1 shapeCasts_S1x16_S1x16) broadcasts_S1x16_S25000x16 (ix2 p q))
      (Ideal.ofBits .f32 0x00000000#32) = _
  rw [shapeCast_self, shapeCast_self, broadcastTo_1b_ab_apply]

/-- The block indices over the grid: the input tile moves with the output's tile; the row's block is always the
    whole row; the column block is 0. -/
theorem block_indices : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 :=
  (by decide +kernel : ∀ t : Fin grid1.N, _)

/-- Every row tile is some point's. -/
theorem tile_onto : ∀ r : Fin 10, ∃ t : Fin cfg1.N, win1_2.index t = ![r.val, 0] :=
  (by decide +kernel : ∀ r : Fin 10, ∃ t : Fin grid1.N, win1_2.index t = ![r.val, 0])

/-- What point t writes back is tile t of the entering array plus the row, positive part. -/
theorem flushed_eq (c : Dev nD) (t : Fin cfg1.N) :
    (dat1 V c).flushed 2 t = ((cfg1.win 2).blk t).view.read (Elt Ideal) (addRowPos (agg V c) (row V c)) := by
  show (cfg1.win 2).cut (grid1.coords t) ((dat1 V c).after 2 t) = _
  rw [after1_2]
  unfold out1_2
  rw [View.canon_unit_zero offsets_zero]
  simp only [View.ld_unit_zero (S := S25000x16) offsets_zero, View.ld_unit_zero (S := S1x16) offsets_zero]
  obtain ⟨e0, e1, e2, e3, e4⟩ := block_indices t
  funext j
  obtain ⟨p, q, rfl⟩ : ∃ (p : Fin 25000) (q : Fin 16), j = ix2 p q := ⟨j 0, j 1, eq_ix2 j⟩
  show k1_pay1 (iblk1 V c 0 t) (iblk1 V c 1 t) (ix2 p q)
    = addRowPos (agg V c) (row V c) (((cfg1.win 2).blk t).view.emb (ix2 p q))
  rw [tile_apply]
  show max (agg V c (((cfg1.win 0).blk t).view.emb (ix2 p q)) + row V c (((cfg1.win 1).blk t).view.emb (ix2 (0 : Fin 1) q))) _
    = max (agg V c (((cfg1.win 2).blk t).view.emb (ix2 p q))
        + row V c (ix2 (0 : Fin 1) ((((cfg1.win 2).blk t).view.emb (ix2 p q)) 1))) _
  have h0 : ((cfg1.win 0).blk t).view.emb (ix2 p q) = ((cfg1.win 2).blk t).view.emb (ix2 p q) := by
    funext a; apply Fin.ext
    match a with
    | ⟨0, _⟩ => show win1_0.index t (0 : Fin 2) * 25000 + 1 * p.val = win1_2.index t (0 : Fin 2) * 25000 + 1 * p.val; omega
    | ⟨1, _⟩ => show win1_0.index t (1 : Fin 2) * 16 + 1 * q.val = win1_2.index t (1 : Fin 2) * 16 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 16 + 1 * q.val = win1_2.index t (1 : Fin 2) * 16 + 1 * q.val; omega
  rw [h0, h1]
  rfl

/-- An index of the output array is in point t's tile iff each coordinate is in the tile's range on its axis. -/
theorem mem_tile (t : Fin cfg1.N) (i : S250000x16.Idx) :
    i ∈ ((cfg1.win 2).blk t).view.set ↔ ∀ a : Fin 2, win1_2.index t a * S25000x16.size a ≤ (i a).val ∧ (i a).val < win1_2.index t a * S25000x16.size a + S25000x16.size a := by
  show i ∈ ((View.whole main_v45).slice (win1_2.rect t)).set ↔ _
  rw [View.set_slice_whole, Rect.mem_set_unit]
  exact Iff.rfl

/-- The ten tiles cover the array: row r is in tile r / 25000. -/
theorem covered (i : S250000x16.Idx) : ∃ t : Fin cfg1.N, (cfg1.win 2).flush t = true ∧ i ∈ ((cfg1.win 2).blk t).view.set := by
  have hi0 : (i 0).val < 250000 := (i 0).isLt
  have hi1 : (i 1).val < 16 := (i 1).isLt
  obtain ⟨t, ht⟩ := tile_onto ⟨(i 0).val / 25000, by omega⟩
  have q0 : win1_2.index t (0 : Fin 2) = (i 0).val / 25000 := congrFun ht 0
  have q1 : win1_2.index t (1 : Fin 2) = 0 := congrFun ht 1
  refine ⟨t, flush1_2 t, ?_⟩
  rw [mem_tile]
  intro a
  match a with
  | ⟨0, _⟩ => show win1_2.index t (0 : Fin 2) * 25000 ≤ (i 0).val ∧ (i 0).val < win1_2.index t (0 : Fin 2) * 25000 + 25000; omega
  | ⟨1, _⟩ => show win1_2.index t (1 : Fin 2) * 16 ≤ (i 1).val ∧ (i 1).val < win1_2.index t (1 : Fin 2) * 16 + 16; omega

/-- The output array after the region: the entering array plus the row, positive part. -/
theorem final (c : Dev nD) : (dat1 V c).arrAt 2 cfg1.N = addRowPos (agg V c) (row V c) :=
  (dat1 V c).arrAt_eq_of_cover 2 _ (fun t _ => flushed_eq V c t) covered

end Cert.KernelIdeal.Bias1

end
-- ==== Proof.Dense2.lean ====
/-
  The second layer's product. The region runs ten row tiles of 25000 rows of the hidden array; each tile multiplies
  its rows by the whole 16 × 1 weight column (the shape cast to the same shape and the change of format on the way
  in are the identity at the ideal values, and the accumulator starts at zero). Entry (p, 0) of tile t is the sum
  over the 16 contracted columns of h(25000·t + p, c) · W(c, 0), entry (25000·t + p, 0) of the product of the whole
  arrays: every tile is a block of ONE array and the ten tiles cover the 250000 rows.
-/
import proofs.«176258_j37391985279004_1_alg».proof.Proof.Gen.KernelIdeal.Frame
import proofs.«176258_j37391985279004_1_alg».proof.Proof.Layers
import proofs.«176258_j37391985279004_1_alg».proof.Proof.LibPlainMatmul
import Idealize.ShloMosaic.Lib.Pipeline.Value
import Idealize.ShloMosaic.Lib.ValueIdx

set_option maxRecDepth 16384

open scoped BigOperators

noncomputable section

namespace Cert.KernelIdeal.Dense2

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

-- the buffer contents the region is entered from: a parameter, as in the region's generated half
variable (V : (c : Dev nD) → (b : Ref sig .tc) → Buf (Elt Ideal) ((c : Thread nD τ).loc b))

/-- The hidden array as the region finds it, at its literal type. -/
abbrev hid (c : Dev nD) : FVec Ideal S250000x16 .f32 := V c main_v45
/-- The weight column as the region finds it, at its literal type. -/
abbrev wts (c : Dev nD) : FVec Ideal S16x1 .f32 := V c main_arg4

theorem offsets_zero : (![0, 0] : Fin 2 → Nat) = fun _ => 0 := funext fun a => by fin_cases a <;> rfl

/-- One tile's product at entry (p, q): the sum along row p of the tile and column q of the weights. -/
theorem tile_apply (x0 : Vec Ideal S25000x16 .f32) (x1 : Vec Ideal S16x1 .f32) (p : Fin 25000) (q : Fin 1) :
    k2_pay1 x0 x1 (ix2 p q) = ∑ c : Fin 16, x0 (ix2 p c) * x1 (ix2 c q) := by
  unfold k2_pay1
  refine (PlainMatmul.matmul_zero_apply _ dot_S25000x16_S16x1_S25000x1_1_0_0_1_n_n.wf rfl none _ _ p q).trans ?_
  refine Finset.sum_congr rfl fun k _ => ?_
  show shapeCast S25000x16 x0 shapeCasts_S25000x16_S25000x16 (ix2 p k) * x1 (ix2 k q) = _
  rw [shapeCast_self]

/-- The block indices over the grid: the tile of the hidden array moves with the output's tile along the rows and
    sits at column block 0; the weights' block is always the whole column; the output's column block is 0. -/
theorem block_indices : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 :=
  (by decide +kernel : ∀ t : Fin grid2.N, _)

/-- Every row tile is some point's. -/
theorem tile_onto : ∀ r : Fin 10, ∃ t : Fin cfg2.N, win2_2.index t = ![r.val, 0] :=
  (by decide +kernel : ∀ r : Fin 10, ∃ t : Fin grid2.N, win2_2.index t = ![r.val, 0])

/-- What point t writes back is tile t of the product of the whole entering arrays. -/
theorem flushed_eq (c : Dev nD) (t : Fin cfg2.N) :
    (dat2 V c).flushed 2 t = ((cfg2.win 2).blk t).view.read (Elt Ideal) (matProd (hid V c) (wts V c)) := by
  show (cfg2.win 2).cut (grid2.coords t) ((dat2 V c).after 2 t) = _
  rw [after2_2]
  unfold out2_2
  rw [View.canon_unit_zero offsets_zero]
  simp only [View.ld_unit_zero (S := S25000x16) offsets_zero, View.ld_unit_zero (S := S16x1) offsets_zero]
  obtain ⟨e0, e1, e2, e3, e4⟩ := block_indices t
  funext j
  obtain ⟨p, q, rfl⟩ : ∃ (p : Fin 25000) (q : Fin 1), j = ix2 p q := ⟨j 0, j 1, eq_ix2 j⟩
  show k2_pay1 (iblk2 V c 0 t) (iblk2 V c 1 t) (ix2 p q)
    = matProd (hid V c) (wts V c) (((cfg2.win 2).blk t).view.emb (ix2 p q))
  rw [tile_apply]
  refine Finset.sum_congr rfl fun k _ => ?_
  show hid V c (((cfg2.win 0).blk t).view.emb (ix2 p k)) * wts V c (((cfg2.win 1).blk t).view.emb (ix2 k q))
    = hid V c (ix2 ((((cfg2.win 2).blk t).view.emb (ix2 p q)) 0) k)
      * wts V c (ix2 k ((((cfg2.win 2).blk t).view.emb (ix2 p q)) 1))
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 25000 + 1 * p.val = win2_2.index t (0 : Fin 2) * 25000 + 1 * p.val; omega
    | ⟨1, _⟩ => show win2_0.index t (1 : Fin 2) * 16 + 1 * k.val = k.val; omega
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 16 + 1 * k.val = k.val; omega
    | ⟨1, _⟩ => show win2_1.index t (1 : Fin 2) * 1 + 1 * q.val = win2_2.index t (1 : Fin 2) * 1 + 1 * q.val; omega
  rw [h0, h1]
  rfl

/-- An index of the output array is in point t's tile iff each coordinate is in the tile's range on its axis. -/
theorem mem_tile (t : Fin cfg2.N) (i : S250000x1.Idx) :
    i ∈ ((cfg2.win 2).blk t).view.set ↔ ∀ a : Fin 2, win2_2.index t a * S25000x1.size a ≤ (i a).val ∧ (i a).val < win2_2.index t a * S25000x1.size a + S25000x1.size a := by
  show i ∈ ((View.whole main_v46).slice (win2_2.rect t)).set ↔ _
  rw [View.set_slice_whole, Rect.mem_set_unit]
  exact Iff.rfl

/-- The ten tiles cover the array: row r is in tile r / 25000. -/
theorem covered (i : S250000x1.Idx) : ∃ t : Fin cfg2.N, (cfg2.win 2).flush t = true ∧ i ∈ ((cfg2.win 2).blk t).view.set := by
  have hi0 : (i 0).val < 250000 := (i 0).isLt
  have hi1 : (i 1).val < 1 := (i 1).isLt
  obtain ⟨t, ht⟩ := tile_onto ⟨(i 0).val / 25000, by omega⟩
  have q0 : win2_2.index t (0 : Fin 2) = (i 0).val / 25000 := congrFun ht 0
  have q1 : win2_2.index t (1 : Fin 2) = 0 := congrFun ht 1
  refine ⟨t, flush2_2 t, ?_⟩
  rw [mem_tile]
  intro a
  match a with
  | ⟨0, _⟩ => show win2_2.index t (0 : Fin 2) * 25000 ≤ (i 0).val ∧ (i 0).val < win2_2.index t (0 : Fin 2) * 25000 + 25000; omega
  | ⟨1, _⟩ => show win2_2.index t (1 : Fin 2) * 1 ≤ (i 1).val ∧ (i 1).val < win2_2.index t (1 : Fin 2) * 1 + 1; omega

/-- The output array after the region: the product of the entering arrays. -/
theorem final (c : Dev nD) : (dat2 V c).arrAt 2 cfg2.N = matProd (hid V c) (wts V c) :=
  (dat2 V c).arrAt_eq_of_cover 2 _ (fun t _ => flushed_eq V c t) covered

end Cert.KernelIdeal.Dense2

end
-- ==== Proof.Bias2.lean ====
/-
  The second layer's bias. The region runs ten row tiles of 25000 rows of the aggregated one-column array; at every
  entry (p, 0) of a tile it adds the one entry of the bias row. The bias row's block is the whole row at every
  point, and a tile's entry (p, 0) is entry (25000·t + p, 0) of the array, so each tile is a block of ONE array —
  the entering array plus the row — and the ten tiles cover it.
-/
import proofs.«176258_j37391985279004_1_alg».proof.Proof.Gen.KernelIdeal.Frame
import proofs.«176258_j37391985279004_1_alg».proof.Proof.Layers
import Idealize.ShloMosaic.Lib.Pipeline.Value
import Idealize.ShloMosaic.Lib.ValueIdx
import Idealize.ShloMosaic.Lib.ValueLayout

set_option maxRecDepth 16384

noncomputable section

namespace Cert.KernelIdeal.Bias2

open Cert.KernelIdeal Cert.KernelIdeal.Gen Cert.Layers
open Idealize.ShloMosaic Idealize.ShloMosaic.TcCoe Idealize.ShloMosaic.ValueIdx Idealize.SL.Sem
open Idealize.ShloMosaic.Pipeline (Dat Cfg Window)

-- the buffer contents the region is entered from: a parameter, as in the region's generated half
variable (V : (c : Dev nD) → (b : Ref sig .tc) → Buf (Elt Ideal) ((c : Thread nD τ).loc b))

/-- The aggregated array as the region finds it, at its literal type. -/
abbrev agg (c : Dev nD) : FVec Ideal S250000x1 .f32 := V c main_v58
/-- The bias row as the region finds it, at its literal type. -/
abbrev row (c : Dev nD) : FVec Ideal S1x1 .f32 := V c main_v59

theorem offsets_zero : (![0, 0] : Fin 2 → Nat) = fun _ => 0 := funext fun a => by fin_cases a <;> rfl

/-- One tile's result at entry (p, q): the entry plus the row's entry q. -/
theorem tile_apply (x0 : Vec Ideal S25000x1 .f32) (x1 : Vec Ideal S1x1 .f32) (p : Fin 25000) (q : Fin 1) :
    k3_pay1 x0 x1 (ix2 p q) = x0 (ix2 p q) + x1 (ix2 (0 : Fin 1) q) := by
  unfold k3_pay1
  show shapeCast S25000x1 x0 shapeCasts_S25000x1_S25000x1 (ix2 p q)
      + broadcastTo S25000x1 (shapeCast S1x1 x1 shapeCasts_S1x1_S1x1) broadcasts_S1x1_S25000x1 (ix2 p q) = _
  rw [shapeCast_self, shapeCast_self, broadcastTo_1b_ab_apply]

/-- The block indices over the grid: the input tile moves with the output's tile; the row's block is always the
    whole row; the column block is 0. -/
theorem block_indices : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 :=
  (by decide +kernel : ∀ t : Fin grid3.N, _)

/-- Every row tile is some point's. -/
theorem tile_onto : ∀ r : Fin 10, ∃ t : Fin cfg3.N, win3_2.index t = ![r.val, 0] :=
  (by decide +kernel : ∀ r : Fin 10, ∃ t : Fin grid3.N, win3_2.index t = ![r.val, 0])

/-- What point t writes back is tile t of the entering array plus the row. -/
theorem flushed_eq (c : Dev nD) (t : Fin cfg3.N) :
    (dat3 V c).flushed 2 t = ((cfg3.win 2).blk t).view.read (Elt Ideal) (addRow (agg V c) (row V c)) := by
  show (cfg3.win 2).cut (grid3.coords t) ((dat3 V c).after 2 t) = _
  rw [after3_2]
  unfold out3_2
  rw [View.canon_unit_zero offsets_zero]
  simp only [View.ld_unit_zero (S := S25000x1) offsets_zero, View.ld_unit_zero (S := S1x1) offsets_zero]
  obtain ⟨e0, e1, e2, e3, e4⟩ := block_indices t
  funext j
  obtain ⟨p, q, rfl⟩ : ∃ (p : Fin 25000) (q : Fin 1), j = ix2 p q := ⟨j 0, j 1, eq_ix2 j⟩
  show k3_pay1 (iblk3 V c 0 t) (iblk3 V c 1 t) (ix2 p q)
    = addRow (agg V c) (row V c) (((cfg3.win 2).blk t).view.emb (ix2 p q))
  rw [tile_apply]
  show agg V c (((cfg3.win 0).blk t).view.emb (ix2 p q)) + row V c (((cfg3.win 1).blk t).view.emb (ix2 (0 : Fin 1) q))
    = agg V c (((cfg3.win 2).blk t).view.emb (ix2 p q))
        + row V c (ix2 (0 : Fin 1) ((((cfg3.win 2).blk t).view.emb (ix2 p q)) 1))
  have h0 : ((cfg3.win 0).blk t).view.emb (ix2 p q) = ((cfg3.win 2).blk t).view.emb (ix2 p q) := by
    funext a; apply Fin.ext
    match a with
    | ⟨0, _⟩ => show win3_0.index t (0 : Fin 2) * 25000 + 1 * p.val = win3_2.index t (0 : Fin 2) * 25000 + 1 * p.val; omega
    | ⟨1, _⟩ => show win3_0.index t (1 : Fin 2) * 1 + 1 * q.val = win3_2.index t (1 : Fin 2) * 1 + 1 * q.val; omega
  have h1 : ((cfg3.win 1).blk t).view.emb (ix2 (0 : Fin 1) q) = ix2 (0 : Fin 1) ((((cfg3.win 2).blk t).view.emb (ix2 p q)) 1) := by
    funext a; apply Fin.ext
    match a with
    | ⟨0, _⟩ => show win3_1.index t (0 : Fin 2) * 1 + 1 * 0 = 0; omega
    | ⟨1, _⟩ => show win3_1.index t (1 : Fin 2) * 1 + 1 * q.val = win3_2.index t (1 : Fin 2) * 1 + 1 * q.val; omega
  rw [h0, h1]
  rfl

/-- An index of the output array is in point t's tile iff each coordinate is in the tile's range on its axis. -/
theorem mem_tile (t : Fin cfg3.N) (i : S250000x1.Idx) :
    i ∈ ((cfg3.win 2).blk t).view.set ↔ ∀ a : Fin 2, win3_2.index t a * S25000x1.size a ≤ (i a).val ∧ (i a).val < win3_2.index t a * S25000x1.size a + S25000x1.size a := by
  show i ∈ ((View.whole main_v60).slice (win3_2.rect t)).set ↔ _
  rw [View.set_slice_whole, Rect.mem_set_unit]
  exact Iff.rfl

/-- The ten tiles cover the array: row r is in tile r / 25000. -/
theorem covered (i : S250000x1.Idx) : ∃ t : Fin cfg3.N, (cfg3.win 2).flush t = true ∧ i ∈ ((cfg3.win 2).blk t).view.set := by
  have hi0 : (i 0).val < 250000 := (i 0).isLt
  have hi1 : (i 1).val < 1 := (i 1).isLt
  obtain ⟨t, ht⟩ := tile_onto ⟨(i 0).val / 25000, by omega⟩
  have q0 : win3_2.index t (0 : Fin 2) = (i 0).val / 25000 := congrFun ht 0
  have q1 : win3_2.index t (1 : Fin 2) = 0 := congrFun ht 1
  refine ⟨t, flush3_2 t, ?_⟩
  rw [mem_tile]
  intro a
  match a with
  | ⟨0, _⟩ => show win3_2.index t (0 : Fin 2) * 25000 ≤ (i 0).val ∧ (i 0).val < win3_2.index t (0 : Fin 2) * 25000 + 25000; omega
  | ⟨1, _⟩ => show win3_2.index t (1 : Fin 2) * 1 ≤ (i 1).val ∧ (i 1).val < win3_2.index t (1 : Fin 2) * 1 + 1; omega

/-- The output array after the region: the entering array plus the row. -/
theorem final (c : Dev nD) : (dat3 V c).arrAt 2 cfg3.N = addRow (agg V c) (row V c) :=
  (dat3 V c).arrAt_eq_of_cover 2 _ (fun t _ => flushed_eq V c t) covered

end Cert.KernelIdeal.Bias2

end
-- ==== Proof.LibPlainDot.lean ====
/-
  A HOST DOT PRODUCT READ AT AN ENTRY. jnp's `dot_general` of an m × k matrix by a k × n matrix (the left operand
  contracted on its columns, the right one on its rows, no batch axis) is, at the ideal values and at entry (a, b), the
  sum over the contracted coordinate c of A(a, c) · B(c, b), whatever the precision and the schedule: the same sum a
  kernel's matrix product into the zero splat gives.
-/
import proofs.«176258_j37391985279004_1_alg».proof.Proof.LibPlainMatmul

open scoped BigOperators

noncomputable section

namespace Idealize.ShloMosaic.PlainMatmul

open Idealize.ShloMosaic Idealize.ShloMosaic.ValueIdx

variable {m k n : Nat} {φ₁ φ₂ : FTy}

/-- The host's plain product at entry (a, b): the sum of the products along row a of A and column b of B. -/
theorem dotGeneral_apply (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] []) (hd : d = dims w)
    (prec : Option ContractPrecision) (sched : HostSchedule) (A : FVec Ideal ⟨2, ![m, k]⟩ φ₁) (B : FVec Ideal ⟨2, ![k, n]⟩ φ₂)
    (a : Fin m) (b : Fin n) :
    FloatOps.dotGeneral d prec sched A B (ix2 a b) = ∑ c : Fin k, A (ix2 a c) * B (ix2 c b) := by
  subst hd
  rw [Ideal.dotGeneral_apply, ← Equiv.sum_comp (contrEquiv1 (dims w) k rfl rfl).symm]
  refine Finset.sum_congr rfl fun c _ => ?_
  rw [lhsIdx_dims, rhsIdx_dims]

end Idealize.ShloMosaic.PlainMatmul

end
-- ==== Proof.RefLayers.lean ====
/-
  The reference's dense steps are the layers' arithmetic. Its two dot products are the matrix products entry by
  entry (the sum over the contracted coordinate, whatever the precision and the schedule, at the ideal values). Its
  bias, broadcast first to one row and then over all rows, read at entry (a, b) is the bias's entry b — what a
  one-row array holding the bias adds —; its relu is the maximum with the zero word's value.
-/
import proofs.«176258_j37391985279004_1_alg».proof.Proof.RefRead
import proofs.«176258_j37391985279004_1_alg».proof.Proof.Layers
import proofs.«176258_j37391985279004_1_alg».proof.Proof.LibPlainDot
import Idealize.ShloMosaic.Lib.ValueIdx
import Idealize.ShloMosaic.Lib.ValueLayout
import Idealize.ShloMosaic.Lib.Pipeline.Value

open scoped BigOperators

noncomputable section

namespace Cert.ReferenceIdeal.Dense

open Cert.ReferenceIdeal Cert.ReferenceIdeal.ReadP Cert.Layers
open Idealize.ShloMosaic Idealize.ShloMosaic.ValueIdx

variable (x0 : (⟨S250000x18, .f32⟩ : BufTy).Contents (Elt Ideal)) (x1 : (⟨S2x4000000, .i32⟩ : BufTy).Contents (Elt Ideal))
  (x2 : (⟨S18x16, .f32⟩ : BufTy).Contents (Elt Ideal)) (x3 : (⟨S16, .f32⟩ : BufTy).Contents (Elt Ideal))
  (x4 : (⟨S16x1, .f32⟩ : BufTy).Contents (Elt Ideal)) (x5 : (⟨S1, .f32⟩ : BufTy).Contents (Elt Ideal))

/-- The first dot product is the product of the features by the first weights, entry by entry. -/
theorem product1 : val_main_v30 (F := Ideal) x0 x2 = matProd x0 x2 := by
  funext i
  obtain ⟨p, q, rfl⟩ : ∃ (p : Fin 250000) (q : Fin 16), i = ix2 p q := ⟨i 0, i 1, eq_ix2 i⟩
  rw [matProd_apply]
  unfold val_main_v30
  simp only [Host.dotGeneral]
  exact PlainMatmul.dotGeneral_apply _ dot_S250000x18_S18x16_S250000x16_1_0_0_1_n_n.wf rfl _ _ _ _ p q

/-- The hidden array: the aggregated array plus the bias in every row, positive part. -/
theorem hidden (h : S16.ShapeCasts S1x16) :
    val_main_v47 (F := Ideal) x0 x1 x2 x3 = addRowPos (val_main_v43 (F := Ideal) x0 x1 x2) (shapeCast S1x16 x3 h) := by
  funext i
  obtain ⟨p, q, rfl⟩ : ∃ (p : Fin 250000) (q : Fin 16), i = ix2 p q := ⟨i 0, i 1, eq_ix2 i⟩
  rw [addRowPos_apply, shapeCast_a_1a_apply, val_main_v47_apply, val_main_v46_apply, val_main_v45_apply, val_main_v44_apply,
    val_main_call1_v0_apply, val_main_call1_cst_apply]
  have hidx : idx_main_v44 (idx_main_v45 (ix2 p q)) = ix1 q := funext fun a => match a with | ⟨0, _⟩ => rfl
  rw [hidx]
  rfl

/-- The second dot product is the product of the hidden array by the second weights, entry by entry. -/
theorem product2 :
    val_main_v48 (F := Ideal) x0 x1 x2 x3 x4 = matProd (val_main_v47 (F := Ideal) x0 x1 x2 x3) x4 := by
  funext i
  obtain ⟨p, q, rfl⟩ : ∃ (p : Fin 250000) (q : Fin 1), i = ix2 p q := ⟨i 0, i 1, eq_ix2 i⟩
  rw [matProd_apply]
  unfold val_main_v48
  generalize val_main_v47 (F := Ideal) x0 x1 x2 x3 = y0
  simp only [Host.dotGeneral]
  exact PlainMatmul.dotGeneral_apply _ dot_S250000x16_S16x1_S250000x1_1_0_0_1_n_n.wf rfl _ _ _ _ p q

/-- The result: the second aggregated array plus the second bias in every row. -/
theorem output (h : S1.ShapeCasts S1x1) :
    val_main_v63 (F := Ideal) x0 x1 x2 x3 x4 x5 = addRow (val_main_v60 (F := Ideal) x0 x1 x2 x3 x4) (shapeCast S1x1 x5 h) := by
  funext i
  obtain ⟨p, q, rfl⟩ : ∃ (p : Fin 250000) (q : Fin 1), i = ix2 p q := ⟨i 0, i 1, eq_ix2 i⟩
  rw [addRow_apply, shapeCast_a_1a_apply, val_main_v63_apply, val_main_v62_apply, val_main_v61_apply]
  have hidx : idx_main_v61 (idx_main_v62 (ix2 p q)) = ix1 q :=
    funext fun a => match a with | ⟨0, _⟩ => Fin.ext (by have := q.isLt; show 0 = q.val; omega)
  rw [hidx]
  rfl

end Cert.ReferenceIdeal.Dense

end
-- ==== Proof.Through.lean ====
/-
  The kernel's program followed from the launch to the return, buffer by buffer. @main is host operations, a region,
  host operations, two regions, host operations, a last region. The host operations are the reference's own: the
  source and destination indices with the self-loops appended, the degree-normalised edge weights, and after each
  product the gather of the product's rows at the sources, the scaling by the weights and the sum into the
  destinations; they are read off the operation lists as the same terms the reference's stages are. Each region's
  output array is its layer's arithmetic of the arrays it is entered from. So every buffer the next step reads holds
  the reference's stage of the six arguments, and the returned array holds the reference's result.
-/
import proofs.«176258_j37391985279004_1_alg».proof.Proof.Gen.KernelIdeal.Frame
import proofs.«176258_j37391985279004_1_alg».proof.Proof.Dense1
import proofs.«176258_j37391985279004_1_alg».proof.Proof.Bias1
import proofs.«176258_j37391985279004_1_alg».proof.Proof.Dense2
import proofs.«176258_j37391985279004_1_alg».proof.Proof.Bias2
import proofs.«176258_j37391985279004_1_alg».proof.Proof.RefLayers
import Idealize.ShloMosaic.Lib.StableHlo.Run

set_option maxRecDepth 16384

noncomputable section

namespace Cert.KernelIdeal.Through

open Cert.KernelIdeal Cert.KernelIdeal.Gen Cert.Layers
open Idealize.ShloMosaic Idealize.ShloMosaic.TcCoe Idealize.SL.Sem Idealize.ShloMosaic.StableHlo
open Cert.ReferenceIdeal.ReadP (val_main_v3 val_main_v6 val_main_v29 val_main_v30 val_main_v43 val_main_v47 val_main_v48
  val_main_v60 val_main_v63)

/-- Reads a buffer after a list of host operations: one pass over the operations' result equations, then the same
    equations by rewriting for what the pass leaves unread inside a concatenate's list of operands. -/
macro "read_results" : tactic => `(tactic| (
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))))

/-! ## The host operations, at any float family -/

section Host

variable {F : FTy → Type} [FloatOps F]
variable (m : (ℓ : Loc nD τ sig) → Buf (Elt F) ℓ) (ρ : Dev nD → PrngReg) (c : Dev nD)

/-- The six arguments as launched, at their literal types. -/
abbrev feat : (⟨S250000x18, .f32⟩ : BufTy).Contents (Elt F) := m ((c : Thread nD τ).loc main_arg0)
abbrev edges : (⟨S2x4000000, .i32⟩ : BufTy).Contents (Elt F) := m ((c : Thread nD τ).loc main_arg1)
abbrev wts1 : (⟨S18x16, .f32⟩ : BufTy).Contents (Elt F) := m ((c : Thread nD τ).loc main_arg2)
abbrev bias1 : (⟨S16, .f32⟩ : BufTy).Contents (Elt F) := m ((c : Thread nD τ).loc main_arg3)
abbrev wts2 : (⟨S16x1, .f32⟩ : BufTy).Contents (Elt F) := m ((c : Thread nD τ).loc main_arg4)
abbrev bias2 : (⟨S1, .f32⟩ : BufTy).Contents (Elt F) := m ((c : Thread nD τ).loc main_arg5)

/-! ### Before the first region: the indices and the edge weights; the arguments untouched -/

/-- The source indices, self-loops appended. -/
theorem W3_src : W3 m ρ c (Proc.devRef .tc main_v5) = val_main_v3 (F := F) (edges m c) := by
  show StableHlo.after hostOps0_2 (StableHlo.after hostOps0_1 (StableHlo.after hostOps0 (W0 m ρ c))) (Proc.devRef .tc main_v5) = _
  read_results <;> rfl
/-- The destination indices, self-loops appended. -/
theorem W3_dst : W3 m ρ c (Proc.devRef .tc main_v6) = val_main_v6 (F := F) (edges m c) := by
  show StableHlo.after hostOps0_2 (StableHlo.after hostOps0_1 (StableHlo.after hostOps0 (W0 m ρ c))) (Proc.devRef .tc main_v6) = _
  read_results <;> rfl
set_option maxHeartbeats 4000000 in
/-- The edge weights: the product of the two ends' inverse square-root degrees. -/
theorem W3_norm : W3 m ρ c (Proc.devRef .tc main_v29) = val_main_v29 (F := F) (edges m c) := by
  show StableHlo.after hostOps0_2 (StableHlo.after hostOps0_1 (StableHlo.after hostOps0 (W0 m ρ c))) (Proc.devRef .tc main_v29) = _
  read_results
  simp only [TRef.ofBuf, TRef.toBuf, cast_eq]
  rfl
theorem W3_arg0 : W3 m ρ c (Proc.devRef .tc main_arg0) = feat m c := by
  show StableHlo.after hostOps0_2 (StableHlo.after hostOps0_1 (StableHlo.after hostOps0 (W0 m ρ c))) (Proc.devRef .tc main_arg0) = _
  read_results <;> rfl
theorem W3_arg2 : W3 m ρ c (Proc.devRef .tc main_arg2) = wts1 m c := by
  show StableHlo.after hostOps0_2 (StableHlo.after hostOps0_1 (StableHlo.after hostOps0 (W0 m ρ c))) (Proc.devRef .tc main_arg2) = _
  read_results <;> rfl
theorem W3_arg3 : W3 m ρ c (Proc.devRef .tc main_arg3) = bias1 m c := by
  show StableHlo.after hostOps0_2 (StableHlo.after hostOps0_1 (StableHlo.after hostOps0 (W0 m ρ c))) (Proc.devRef .tc main_arg3) = _
  read_results <;> rfl
theorem W3_arg4 : W3 m ρ c (Proc.devRef .tc main_arg4) = wts2 m c := by
  show StableHlo.after hostOps0_2 (StableHlo.after hostOps0_1 (StableHlo.after hostOps0 (W0 m ρ c))) (Proc.devRef .tc main_arg4) = _
  read_results <;> rfl
theorem W3_arg5 : W3 m ρ c (Proc.devRef .tc main_arg5) = bias2 m c := by
  show StableHlo.after hostOps0_2 (StableHlo.after hostOps0_1 (StableHlo.after hostOps0 (W0 m ρ c))) (Proc.devRef .tc main_arg5) = _
  read_results <;> rfl

/-! ### The first region writes its output array only -/

theorem W4_src : W4 m ρ c (Proc.devRef .tc main_v5) = val_main_v3 (F := F) (edges m c) :=
  (W4_of_ne m ρ c main_v5 (by decide)).trans (W3_src m ρ c)
theorem W4_dst : W4 m ρ c (Proc.devRef .tc main_v6) = val_main_v6 (F := F) (edges m c) :=
  (W4_of_ne m ρ c main_v6 (by decide)).trans (W3_dst m ρ c)
theorem W4_norm : W4 m ρ c (Proc.devRef .tc main_v29) = val_main_v29 (F := F) (edges m c) :=
  (W4_of_ne m ρ c main_v29 (by decide)).trans (W3_norm m ρ c)
theorem W4_arg3 : W4 m ρ c (Proc.devRef .tc main_arg3) = bias1 m c :=
  (W4_of_ne m ρ c main_arg3 (by decide)).trans (W3_arg3 m ρ c)
theorem W4_arg4 : W4 m ρ c (Proc.devRef .tc main_arg4) = wts2 m c :=
  (W4_of_ne m ρ c main_arg4 (by decide)).trans (W3_arg4 m ρ c)
theorem W4_arg5 : W4 m ρ c (Proc.devRef .tc main_arg5) = bias2 m c :=
  (W4_of_ne m ρ c main_arg5 (by decide)).trans (W3_arg5 m ρ c)

/-! ### Between the first and the second region: the first aggregation, the bias as a row -/

set_option maxHeartbeats 4000000 in
/-- The first aggregation, given that the first region left the first product. -/
theorem W5_agg (hh : W4 m ρ c (Proc.devRef .tc main_v30) = val_main_v30 (F := F) (feat m c) (wts1 m c)) :
    W5 m ρ c (Proc.devRef .tc main_v43) = val_main_v43 (F := F) (feat m c) (edges m c) (wts1 m c) := by
  show StableHlo.after hostOps1 (W4 m ρ c) (Proc.devRef .tc main_v43) = _
  read_results
  rw [hh, W4_src, W4_dst, W4_norm]
  rfl
/-- The first bias, reshaped to one row. -/
theorem W5_row : W5 m ρ c (Proc.devRef .tc main_v44) = shapeCast S1x16 (bias1 m c) shapeCasts_S16_S1x16 := by
  show StableHlo.after hostOps1 (W4 m ρ c) (Proc.devRef .tc main_v44) = _
  read_results
  rw [W4_arg3]
  rfl
theorem W5_src : W5 m ρ c (Proc.devRef .tc main_v5) = val_main_v3 (F := F) (edges m c) := by
  show StableHlo.after hostOps1 (W4 m ρ c) (Proc.devRef .tc main_v5) = _
  read_results
  exact W4_src m ρ c
theorem W5_dst : W5 m ρ c (Proc.devRef .tc main_v6) = val_main_v6 (F := F) (edges m c) := by
  show StableHlo.after hostOps1 (W4 m ρ c) (Proc.devRef .tc main_v6) = _
  read_results
  exact W4_dst m ρ c
theorem W5_norm : W5 m ρ c (Proc.devRef .tc main_v29) = val_main_v29 (F := F) (edges m c) := by
  show StableHlo.after hostOps1 (W4 m ρ c) (Proc.devRef .tc main_v29) = _
  read_results
  exact W4_norm m ρ c
theorem W5_arg4 : W5 m ρ c (Proc.devRef .tc main_arg4) = wts2 m c := by
  show StableHlo.after hostOps1 (W4 m ρ c) (Proc.devRef .tc main_arg4) = _
  read_results
  exact W4_arg4 m ρ c
theorem W5_arg5 : W5 m ρ c (Proc.devRef .tc main_arg5) = bias2 m c := by
  show StableHlo.after hostOps1 (W4 m ρ c) (Proc.devRef .tc main_arg5) = _
  read_results
  exact W4_arg5 m ρ c

/-! ### The second and the third region write their output arrays only -/

theorem W6_src : W6 m ρ c (Proc.devRef .tc main_v5) = val_main_v3 (F := F) (edges m c) :=
  (W6_of_ne m ρ c main_v5 (by decide)).trans (W5_src m ρ c)
theorem W6_dst : W6 m ρ c (Proc.devRef .tc main_v6) = val_main_v6 (F := F) (edges m c) :=
  (W6_of_ne m ρ c main_v6 (by decide)).trans (W5_dst m ρ c)
theorem W6_norm : W6 m ρ c (Proc.devRef .tc main_v29) = val_main_v29 (F := F) (edges m c) :=
  (W6_of_ne m ρ c main_v29 (by decide)).trans (W5_norm m ρ c)
theorem W6_arg4 : W6 m ρ c (Proc.devRef .tc main_arg4) = wts2 m c :=
  (W6_of_ne m ρ c main_arg4 (by decide)).trans (W5_arg4 m ρ c)
theorem W6_arg5 : W6 m ρ c (Proc.devRef .tc main_arg5) = bias2 m c :=
  (W6_of_ne m ρ c main_arg5 (by decide)).trans (W5_arg5 m ρ c)

theorem W7_src : W7 m ρ c (Proc.devRef .tc main_v5) = val_main_v3 (F := F) (edges m c) :=
  (W7_of_ne m ρ c main_v5 (by decide)).trans (W6_src m ρ c)
theorem W7_dst : W7 m ρ c (Proc.devRef .tc main_v6) = val_main_v6 (F := F) (edges m c) :=
  (W7_of_ne m ρ c main_v6 (by decide)).trans (W6_dst m ρ c)
theorem W7_norm : W7 m ρ c (Proc.devRef .tc main_v29) = val_main_v29 (F := F) (edges m c) :=
  (W7_of_ne m ρ c main_v29 (by decide)).trans (W6_norm m ρ c)
theorem W7_arg5 : W7 m ρ c (Proc.devRef .tc main_arg5) = bias2 m c :=
  (W7_of_ne m ρ c main_arg5 (by decide)).trans (W6_arg5 m ρ c)

/-! ### Between the third and the last region: the second aggregation, the bias as a row -/

set_option maxHeartbeats 4000000 in
/-- The second aggregation, given that the third region left the second product. -/
theorem W8_agg (hh : W7 m ρ c (Proc.devRef .tc main_v46)
      = val_main_v48 (F := F) (feat m c) (edges m c) (wts1 m c) (bias1 m c) (wts2 m c)) :
    W8 m ρ c (Proc.devRef .tc main_v58) = val_main_v60 (F := F) (feat m c) (edges m c) (wts1 m c) (bias1 m c) (wts2 m c) := by
  show StableHlo.after hostOps3 (W7 m ρ c) (Proc.devRef .tc main_v58) = _
  read_results
  rw [hh, W7_src, W7_dst, W7_norm]
  rfl
/-- The second bias, reshaped to one row. -/
theorem W8_row : W8 m ρ c (Proc.devRef .tc main_v59) = shapeCast S1x1 (bias2 m c) shapeCasts_S1_S1x1 := by
  show StableHlo.after hostOps3 (W7 m ρ c) (Proc.devRef .tc main_v59) = _
  read_results
  rw [W7_arg5]
  rfl

end Host

/-! ## The regions, at the ideal values -/

section Regions

variable (m : (ℓ : Loc nD τ sig) → Buf (Elt Ideal) ℓ) (ρ : Dev nD → PrngReg) (c : Dev nD)

/-- The first region leaves the first product. -/
theorem W4_prod : W4 m ρ c (Proc.devRef .tc main_v30) = val_main_v30 (F := Ideal) (feat m c) (wts1 m c) := by
  refine (W4_arr m ρ c 2).trans ((Dense1.final (V3 m ρ) c).trans ?_)
  rw [show Dense1.feat (V3 m ρ) c = feat m c from W3_arg0 m ρ c, show Dense1.wts (V3 m ρ) c = wts1 m c from W3_arg2 m ρ c]
  exact (Cert.ReferenceIdeal.Dense.product1 _ _).symm

/-- The second region leaves the hidden array. -/
theorem W6_hidden :
    W6 m ρ c (Proc.devRef .tc main_v45) = val_main_v47 (F := Ideal) (feat m c) (edges m c) (wts1 m c) (bias1 m c) := by
  refine (W6_arr m ρ c 2).trans ((Bias1.final (V5 m ρ) c).trans ?_)
  rw [show Bias1.agg (V5 m ρ) c = val_main_v43 (F := Ideal) (feat m c) (edges m c) (wts1 m c) from W5_agg m ρ c (W4_prod m ρ c),
    show Bias1.row (V5 m ρ) c = shapeCast S1x16 (bias1 m c) shapeCasts_S16_S1x16 from W5_row m ρ c]
  exact (Cert.ReferenceIdeal.Dense.hidden _ _ _ _ _).symm

/-- The third region leaves the second product. -/
theorem W7_prod : W7 m ρ c (Proc.devRef .tc main_v46)
    = val_main_v48 (F := Ideal) (feat m c) (edges m c) (wts1 m c) (bias1 m c) (wts2 m c) := by
  refine (W7_arr m ρ c 2).trans ((Dense2.final (V6 m ρ) c).trans ?_)
  rw [show Dense2.hid (V6 m ρ) c = val_main_v47 (F := Ideal) (feat m c) (edges m c) (wts1 m c) (bias1 m c) from W6_hidden m ρ c,
    show Dense2.wts (V6 m ρ) c = wts2 m c from W6_arg4 m ρ c]
  exact (Cert.ReferenceIdeal.Dense.product2 _ _ _ _ _).symm

/-- The last region leaves the reference's result of the six arguments. -/
theorem result : W9 m ρ c (Proc.devRef .tc main_v60)
    = val_main_v63 (F := Ideal) (feat m c) (edges m c) (wts1 m c) (bias1 m c) (wts2 m c) (bias2 m c) := by
  refine (W9_arr m ρ c 2).trans ((Bias2.final (V8 m ρ) c).trans ?_)
  rw [show Bias2.agg (V8 m ρ) c = val_main_v60 (F := Ideal) (feat m c) (edges m c) (wts1 m c) (bias1 m c) (wts2 m c)
      from W8_agg m ρ c (W7_prod m ρ c),
    show Bias2.row (V8 m ρ) c = shapeCast S1x1 (bias2 m c) shapeCasts_S1_S1x1 from W8_row m ρ c]
  exact (Cert.ReferenceIdeal.Dense.output _ _ _ _ _ _ _).symm

end Regions

end Cert.KernelIdeal.Through

end
-- ==== Proof.lean ====
/-
  A two-layer graph convolution over 250000 nodes and 4000000 edges with a self-loop appended at every node. Each
  layer multiplies the node array by a weight matrix, gathers the product's rows at the edges' sources, scales every
  edge's row by the product of its two ends' inverse square-root degrees, sums the rows into the edges' destinations
  and adds a bias; the first layer then keeps the positive part. The kernel computes the two products and the two
  bias steps in row tiles of 25000 rows and leaves the gathers, the scaling and the sums to the host; the reference
  does everything on the host.
  At the ideal values a tile of a product is a block of the whole product (the sum over the contracted coordinate;
  the change of format on the way into the product is the identity), a tile of a bias step is a block of the whole
  array plus the bias row, and the tiles cover their arrays; the host operations between the regions are the
  reference's own. So every buffer the kernel's program reads next holds the reference's stage of the six arguments,
  and the returned array is the reference's result: the two runs end with equal results, entry by entry. No law of
  arithmetic beyond the definitions is used, so the finiteness of the inputs is never opened. The idealized kernel
  is the kernel's own text read at the ideal values: nothing was rewritten, and there is nothing to preserve.
-/
import proofs.«176258_j37391985279004_1_alg».proof.Defs
import proofs.«176258_j37391985279004_1_alg».proof.Proof.Gen.Kernel
import proofs.«176258_j37391985279004_1_alg».proof.Proof.Gen.Kernel.Skeleton
import proofs.«176258_j37391985279004_1_alg».proof.Proof.Gen.Kernel.Launch
import proofs.«176258_j37391985279004_1_alg».proof.Proof.Gen.Kernel.Points
import proofs.«176258_j37391985279004_1_alg».proof.Proof.Gen.Kernel.Frame
import proofs.«176258_j37391985279004_1_alg».proof.Proof.Gen.KernelIdeal
import proofs.«176258_j37391985279004_1_alg».proof.Proof.Gen.KernelIdeal.Skeleton
import proofs.«176258_j37391985279004_1_alg».proof.Proof.Gen.KernelIdeal.Launch
import proofs.«176258_j37391985279004_1_alg».proof.Proof.Gen.KernelIdeal.Points
import proofs.«176258_j37391985279004_1_alg».proof.Proof.Gen.KernelIdeal.Frame
import proofs.«176258_j37391985279004_1_alg».proof.Proof.Gen.ReferenceIdeal
import proofs.«176258_j37391985279004_1_alg».proof.Proof.Gen.Pre_finite_inputs
import proofs.«176258_j37391985279004_1_alg».proof.Proof.ResultRun
import proofs.«176258_j37391985279004_1_alg».proof.Proof.RefRun
import proofs.«176258_j37391985279004_1_alg».proof.Proof.RefRead
import proofs.«176258_j37391985279004_1_alg».proof.Proof.Through
import Idealize.ShloMosaic.Adequacy
import Idealize.ShloMosaic.Init

noncomputable section

namespace Cert.Proof

open Idealize.ShloMosaic Idealize.SL.Sem

/-- The kernel's program runs and leaves its arguments as launched. -/
theorem frame_kernel : Cert.frame_Kernel := fun m ρ _ => Cert.Kernel.Gen.frame m ρ

/-- So does its reading at the ideal values. -/
theorem frame_kernelIdeal : Cert.frame_KernelIdeal := fun m ρ _ => Cert.KernelIdeal.Gen.frame m ρ

/-- The reference runs and leaves its arguments as launched: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Nothing was rewritten on the way to the ideal reading. -/
theorem preserves : Cert.preserves_Kernel_KernelIdeal := trivial

/-- From memories agreeing on the six arguments both programs end with the reference's last stage of those
    arguments in their result arrays: the kernel's program by following its buffers through the regions, the
    reference by its own run. -/
theorem algebraic : Cert.algebraic_KernelIdeal_ReferenceIdeal := by
  intro m ρ m' ρ' _ hagree
  refine ⟨fun c => Cert.ReferenceIdeal.ReadP.val_main_v63 (F := Ideal) (Cert.KernelIdeal.Through.feat m c)
      (Cert.KernelIdeal.Through.edges m c) (Cert.KernelIdeal.Through.wts1 m c) (Cert.KernelIdeal.Through.bias1 m c)
      (Cert.KernelIdeal.Through.wts2 m c) (Cert.KernelIdeal.Through.bias2 m c), ?_, ?_⟩
  · exact (θ_run Cert.KernelIdeal.defs _ _).mono
      (fun r h c => ⟨(h c).1.trans (Cert.KernelIdeal.Through.result m ρ c), (h c).2⟩)
      (Cert.KernelIdeal.ResultRun.run_main m ρ)
  · refine (θ_run Cert.ReferenceIdeal.defs _ _).mono (fun _ h c => ⟨?_, (h c).2⟩)
      (Cert.ReferenceIdeal.ValueP.run (F := Ideal) m' ρ')
    refine (h c).1.trans ((Cert.ReferenceIdeal.ReadP.val_main_v63_eq m' c).trans ?_)
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
